-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "c_10_7" .f32 0x3FB6DB6E#32 ((16777216 / 11744051 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S2x1200000 : Shape := ⟨2, ![2, 1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1200000 : S_.BroadcastsInDim S1200000 (![] : Fin 0 → Fin S1200000.rank)
  reducesTo_S1200000_S_d0 : S1200000.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part1 {F : FTy → Type} [FloatOps F] (main_arg4 : FVec F S2x1200000 .f32) (main_v13 : IVec S_ 1) (main_v16 : IVec S1200000 1) : IVec S_ 1 :=
  let main_c_5 : IVec S_ 1 := constantI S_ 1 1#1
  let main_v17 : IVec S_ 1 := (fun x v => Host.reduce IntOp.andi x v reducesTo_S1200000_S_d0 h_S_) main_v16 main_c_5
  let main_v18 : IVec S_ 1 := andi main_v13 main_v17
  let main_v19 : FVec F S2x1200000 .f32 := Host.absf main_arg4
  let main_cst_6 : FVec F S_ .f32 := constant S_ .f32 0x7F800000#32
  let main_v20 : FVec F S2x1200000 .f32 := broadcastInDim S2x1200000 ![] bcast_S_S2x1200000 main_cst_6
  let main_v21 : IVec S2x1200000 1 := cmpf .olt main_v19 main_v20
  let main_c_7 : IVec S_ 1 := constantI S_ 1 1#1
  let main_v22 : IVec S_ 1 := (fun x v => Host.reduce IntOp.andi x v reducesTo_S2x1200000_S_d0_1 h_S_) main_v21 main_c_7
  let main_v23 : IVec S_ 1 := andi main_v18 main_v22
  main_v23

def fn {F : FTy → Type} [FloatOps F] (main_arg0 : FVec F S100000x64 .f32) (main_arg1 : FVec F S64x64 .f32) (main_arg2 : FVec F S64 .f32) (main_arg3 : FVec F S1200000 .f32) (main_arg4 : FVec F S2x1200000 .f32) (main_arg5 : IVec S1200000 32) (main_arg6 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1200000 .f32 := Host.absf main_arg3
  let main_cst_4 : FVec F S_ .f32 := constant S_ .f32 0x7F800000#32
  let main_v15 : FVec F S1200000 .f32 := broadcastInDim S1200000 ![] bcast_S_S1200000 main_cst_4
  let main_v16 : IVec S1200000 1 := cmpf .olt main_v14 main_v15
  fn_part1 (F := F) main_arg4 main_v13 main_v16
-- ==== Kernel.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S2x1200000 : Shape := ⟨2, ![2, 1200000]⟩
abbrev S1x64 : Shape := ⟨2, ![1, 64]⟩
abbrev S5000x64 : Shape := ⟨2, ![5000, 64]⟩
abbrev S1x1200000 : Shape := ⟨2, ![1, 1200000]⟩
abbrev S1x240000 : Shape := ⟨2, ![1, 240000]⟩
abbrev S2x240000 : Shape := ⟨2, ![2, 240000]⟩
abbrev S1200000x1 : Shape := ⟨2, ![1200000, 1]⟩
abbrev S_ : Shape := ⟨0, ![]⟩
abbrev S1200000x64 : Shape := ⟨2, ![1200000, 64]⟩

abbrev nBuf : Space → Nat
  | .hbm => 48
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .f32⟩
  | .hbm, ⟨4, _⟩ => ⟨S2x1200000, .f32⟩
  | .hbm, ⟨5, _⟩ => ⟨S1200000, .i32⟩
  | .hbm, ⟨6, _⟩ => ⟨S1200000, .i32⟩
  | .hbm, ⟨7, _⟩ => ⟨S1x64, .f32⟩
  | .hbm, ⟨8, _⟩ => ⟨S100000x64, .f32⟩
  | .hbm, ⟨9, _⟩ => ⟨S1x1200000, .f32⟩
  | .hbm, ⟨10, _⟩ => ⟨S2x1200000, .f32⟩
  | .hbm, ⟨11, _⟩ => ⟨S1x1200000, .f32⟩
  | .hbm, ⟨12, _⟩ => ⟨S1200000, .f32⟩
  | .hbm, ⟨13, _⟩ => ⟨S1200000x1, .f32⟩
  | .hbm, ⟨14, _⟩ => ⟨S_, .i32⟩
  | .hbm, ⟨15, _⟩ => ⟨S1200000, .i32⟩
  | .hbm, ⟨16, _⟩ => ⟨S1200000, .i1⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S1200000, .i32⟩
  | .hbm, ⟨21, _⟩ => ⟨S1200000x1, .i32⟩
  | .hbm, ⟨22, _⟩ => ⟨S1200000x64, .f32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S1x1200000, .f32⟩
  | .hbm, ⟨30, _⟩ => ⟨S1200000, .f32⟩
  | .hbm, ⟨31, _⟩ => ⟨S1200000x1, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .f32⟩
  | .hbm, ⟨41, _⟩ => ⟨S1200000x64, .f32⟩
  | .hbm, ⟨42, _⟩ => ⟨S1200000x64, .f32⟩
  | .hbm, ⟨43, _⟩ => ⟨S_, .f32⟩
  | .hbm, ⟨44, _⟩ => ⟨S100000x64, .f32⟩
  | .hbm, ⟨45, _⟩ => ⟨S1200000x1, .i32⟩
  | .hbm, ⟨46, _⟩ => ⟨S100000x64, .f32⟩
  | .hbm, ⟨47, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x240000, .f32⟩
  | .local _ .vmem, ⟨7, _⟩ => ⟨S1x240000, .f32⟩
  | .local _ .vmem, ⟨8, _⟩ => ⟨S2x240000, .f32⟩
  | .local _ .vmem, ⟨9, _⟩ => ⟨S2x240000, .f32⟩
  | .local _ .vmem, ⟨10, _⟩ => ⟨S2x240000, .f32⟩
  | .local _ .vmem, ⟨11, _⟩ => ⟨S2x240000, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x240000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x240000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x240000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1200000_S1x1200000 : S1200000.ShapeCasts S1x1200000
  inb_S1x240000_S1x240000_0_0 : ∀ a, (![0, 0] : Fin 2 → Nat) a + S1x240000.size a ≤ S1x240000.size a
  h_S1x240000 : 0 < S1x240000.numel
  shapeCasts_S1x240000_S1x240000 : S1x240000.ShapeCasts S1x240000
  broadcasts_S1x240000_S2x240000 : S1x240000.Broadcasts S2x240000
  inb_S2x240000_S2x240000_0_0 : ∀ a, (![0, 0] : Fin 2 → Nat) a + S2x240000.size a ≤ S2x240000.size a
  h_S2x240000 : 0 < S2x240000.numel
  slices_S2x1200000_S1x1200000_0_0 : S2x1200000.Slices ![0, 0] S1x1200000
  shapeCasts_S1x1200000_S1200000 : S1x1200000.ShapeCasts S1200000
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S2x1200000_S1x1200000_1_0 : S2x1200000.Slices ![1, 0] S1x1200000
  shapeCasts_S5000x64_S5000x64 : S5000x64.ShapeCasts S5000x64
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x240000.size a ≤ S1x1200000.size a
  hwx1_0 : ∀ i : grid1.Coords, EltTy.bits .f32 = 32 ∨ (Rect.block (s := S1x1200000) S1x240000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x240000.size a ≤ S2x1200000.size a
  hwx1_1 : ∀ i : grid1.Coords, EltTy.bits .f32 = 32 ∨ (Rect.block (s := S2x1200000) S2x240000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x240000.size a ≤ S2x1200000.size a
  hwx1_2 : ∀ i : grid1.Coords, EltTy.bits .f32 = 32 ∨ (Rect.block (s := S2x1200000) S2x240000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x240000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2x240000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x240000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S2x1200000 : Shape := ⟨2, ![2, 1200000]⟩
abbrev S1x64 : Shape := ⟨2, ![1, 64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .f32⟩
  | .hbm, ⟨4, _⟩ => ⟨S2x1200000, .f32⟩
  | .hbm, ⟨5, _⟩ => ⟨S1200000, .i32⟩
  | .hbm, ⟨6, _⟩ => ⟨S1200000, .i32⟩
  | .hbm, ⟨7, _⟩ => ⟨S64x64, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S1x1200000, .f32⟩
  | .hbm, ⟨13, _⟩ => ⟨S1200000, .f32⟩
  | .hbm, ⟨14, _⟩ => ⟨S_, .f32⟩
  | .hbm, ⟨15, _⟩ => ⟨S1200000, .f32⟩
  | .hbm, ⟨16, _⟩ => ⟨S1200000, .f32⟩
  | .hbm, ⟨17, _⟩ => ⟨S_, .f32⟩
  | .hbm, ⟨18, _⟩ => ⟨S1200000, .f32⟩
  | .hbm, ⟨19, _⟩ => ⟨S1200000, .i1⟩
  | .hbm, ⟨20, _⟩ => ⟨S_, .f32⟩
  | .hbm, ⟨21, _⟩ => ⟨S1200000, .f32⟩
  | .hbm, ⟨22, _⟩ => ⟨S1200000, .f32⟩
  | .hbm, ⟨23, _⟩ => ⟨S_, .f32⟩
  | .hbm, ⟨24, _⟩ => ⟨S_, .f32⟩
  | .hbm, ⟨25, _⟩ => ⟨S1200000, .f32⟩
  | .hbm, ⟨26, _⟩ => ⟨S1200000, .f32⟩
  | .hbm, ⟨27, _⟩ => ⟨S1200000x1, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S100000x64, .f32⟩
  | .hbm, ⟨44, _⟩ => ⟨S1x1200000, .f32⟩
  | .hbm, ⟨45, _⟩ => ⟨S1200000, .f32⟩
  | .hbm, ⟨46, _⟩ => ⟨S_, .f32⟩
  | .hbm, ⟨47, _⟩ => ⟨S1200000, .f32⟩
  | .hbm, ⟨48, _⟩ => ⟨S1200000, .f32⟩
  | .hbm, ⟨49, _⟩ => ⟨S_, .f32⟩
  | .hbm, ⟨50, _⟩ => ⟨S1200000, .f32⟩
  | .hbm, ⟨51, _⟩ => ⟨S1200000, .i1⟩
  | .hbm, ⟨52, _⟩ => ⟨S_, .f32⟩
  | .hbm, ⟨53, _⟩ => ⟨S1200000, .f32⟩
  | .hbm, ⟨54, _⟩ => ⟨S1200000, .f32⟩
  | .hbm, ⟨55, _⟩ => ⟨S_, .f32⟩
  | .hbm, ⟨56, _⟩ => ⟨S_, .f32⟩
  | .hbm, ⟨57, _⟩ => ⟨S1200000, .f32⟩
  | .hbm, ⟨58, _⟩ => ⟨S1200000, .f32⟩
  | .hbm, ⟨59, _⟩ => ⟨S1200000x1, .f32⟩
  | .hbm, ⟨60, _⟩ => ⟨S_, .i32⟩
  | .hbm, ⟨61, _⟩ => ⟨S1200000, .i32⟩
  | .hbm, ⟨62, _⟩ => ⟨S1200000, .i1⟩
  | .hbm, ⟨63, _⟩ => ⟨S_, .i32⟩
  | .hbm, ⟨64, _⟩ => ⟨S1200000, .i32⟩
  | .hbm, ⟨65, _⟩ => ⟨S1200000, .i32⟩
  | .hbm, ⟨66, _⟩ => ⟨S1200000, .i32⟩
  | .hbm, ⟨67, _⟩ => ⟨S1200000x1, .i32⟩
  | .hbm, ⟨68, _⟩ => ⟨S1200000x64, .f32⟩
  | .hbm, ⟨69, _⟩ => ⟨S1200000x64, .f32⟩
  | .hbm, ⟨70, _⟩ => ⟨S1200000x64, .f32⟩
  | .hbm, ⟨71, _⟩ => ⟨S_, .f32⟩
  | .hbm, ⟨72, _⟩ => ⟨S100000x64, .f32⟩
  | .hbm, ⟨73, _⟩ => ⟨S1200000x1, .i32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S2x1200000_S1x1200000_1_0 : S2x1200000.Slices ![1, 0] S1x1200000
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Fc.lean ====
/-
  The first of the three kernels: the fully connected layer, x · wᵀ + b, over 100000 rows.

  The kernel walks the rows of x in twenty blocks of 5000; the weight matrix w (64 by 64) and the bias (one row of 64)
  are read whole at every block. In a block it transposes w, multiplies the 5000 rows of x by it into a zero
  accumulator, and adds the bias row to every row of the product. Entry (p, q) of a block's result is therefore
  the sum over k of x (p, k) · w (q, k), plus b (q): row p of x against row q of w. The twenty blocks tile the rows, so
  the whole output array is one function of the three whole input arrays.
-/
import proofs.«103289_j53386443489751_1_alg».proof.Proof.Gen.KernelIdeal.Frame
import Idealize.ShloMosaic.Lib.Pipeline.Value
import Idealize.ShloMosaic.Lib.ValueIdx
import Idealize.ShloMosaic.PureOps.IdealRules
import proofs.«103289_j53386443489751_1_alg».proof.Proof.LibPlainMatmul
set_option maxRecDepth 16384

noncomputable section

namespace Cert.KernelIdeal.Fc

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer on whole arrays: entry (n, d) is row n of x against row d of w, plus entry d of the bias row. -/
def layer (x : S100000x64.Idx → EReal) (w : S64x64.Idx → EReal) (b : S1x64.Idx → EReal) : S100000x64.Idx → EReal :=
  fun i => (∑ k : Fin 64, x (ix2 (i 0) k) * w (ix2 (i 1) k)) + b (ix2 0 (i 1))

/-- One block's result at entry (p, q): row p of the loaded block of x against row q of w, plus the bias at q. -/
theorem block_apply (v0 : Vec Ideal S5000x64 .f32) (v2 : Vec Ideal S64x64 .f32) (v6 : Vec Ideal S1x64 .f32)
    (p : Fin 5000) (q : Fin 64) :
    k0_pay1 v0 v2 v6 (ix2 p q) = (∑ k : Fin 64, v0 (ix2 p k) * v2 (ix2 q k)) + v6 (ix2 0 q) := by
  unfold k0_pay1
  simp only [shapeCast_self]
  rw [ValueIdx.addf_apply]
  rw [broadcastTo_apply v6 _ (ix2 p q) (ix2 0 q) (by intro a; match a with | ⟨0, _⟩ => rfl | ⟨1, _⟩ => rfl)]
  refine congrArg (· + v6 (ix2 0 q)) ?_
  refine (Cert.PlainMatmul.apply (M := 5000) (K := 64) (N := 64) none _ _ p q).trans ?_
  refine Finset.sum_congr rfl fun k _ => ?_
  rw [ValueIdx.truncf_apply,
    transpose_apply [1, 0] _ _ (ix2 k q) (ix2 q k) (by intro b; match b with | ⟨0, _⟩ => rfl | ⟨1, _⟩ => rfl),
    ValueIdx.truncf_apply]

/-- The three arrays the region reads, as the region finds them, at their literal types. -/
abbrev arrX (c : Dev nD) : S100000x64.Idx → EReal := V c main_arg0
abbrev arrW (c : Dev nD) : S64x64.Idx → EReal := V c main_arg1
abbrev arrB (c : Dev nD) : S1x64.Idx → EReal := V c main_v0

theorem origin : (![0, 0] : Fin 2 → Nat) = fun _ => 0 := funext fun a => by fin_cases a <;> rfl

/-- The block of x and the output block move together down the rows (block t starts at row 5000 * t); the weight
    matrix and the bias row are read whole at every point. -/
theorem same_block : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the layer of the three arrays as the region finds them. -/
theorem flushed_eq (c : Dev nD) (t : Fin cfg0.N) :
    (dat0 V c).flushed 3 t = ((cfg0.win 3).blk t).view.read (Elt Ideal) (layer (arrX V c) (arrW V c) (arrB V c)) := by
  show (cfg0.win 3).cut (grid0.coords t) ((dat0 V c).after 3 t) = _
  rw [after0_3]
  unfold out0_3
  rw [View.canon_unit_zero origin]
  simp only [View.ld_unit_zero (S := S5000x64) origin, View.ld_unit_zero (S := S64x64) origin,
    View.ld_unit_zero (S := S1x64) origin]
  obtain ⟨e0, e1, e2, e3, e4, e5, e6, e7⟩ := same_block t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = layer (arrX V c) (arrW V c) (arrB V c) (((cfg0.win 3).blk t).view.emb (ix2 p q))
  refine (block_apply (iblk0 V c 0 t) (iblk0 V c 1 t) (iblk0 V c 2 t) p q).trans ?_
  show (∑ k : Fin 64, arrX V c (((cfg0.win 0).blk t).view.emb (ix2 p k)) * arrW V c (((cfg0.win 1).blk t).view.emb (ix2 q k)))
      + arrB V c (((cfg0.win 2).blk t).view.emb (ix2 0 q))
    = (∑ k : Fin 64, arrX V c (ix2 ((((cfg0.win 3).blk t).view.emb (ix2 p q)) 0) k)
          * arrW V c (ix2 ((((cfg0.win 3).blk t).view.emb (ix2 p q)) 1) k))
      + arrB V c (ix2 0 ((((cfg0.win 3).blk t).view.emb (ix2 p q)) 1))
  have h0 : ∀ k : Fin 64, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have h1 : ∀ k : Fin 64, ((cfg0.win 1).blk t).view.emb (ix2 q k) = ix2 ((((cfg0.win 3).blk t).view.emb (ix2 p q)) 1) k := by
    intro k; funext a; apply Fin.ext
    match a with
    | ⟨0, _⟩ => show win0_1.index t (0 : Fin 2) * 64 + 1 * q.val = win0_3.index t (1 : Fin 2) * 64 + 1 * q.val; omega
    | ⟨1, _⟩ => show win0_1.index t (1 : Fin 2) * 64 + 1 * k.val = k.val; omega
  have h2 : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [h2]
  refine congrArg (· + _) (Finset.sum_congr rfl fun k _ => ?_)
  rw [h0 k, h1 k]
  rfl

/-- An index of the output array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Every block index 0 … 19 is some point's. -/
theorem block_onto : ∀ q : Fin 20, ∃ t : Fin cfg0.N, win0_3.index t = ![q.val, 0] :=
  (by decide +kernel : ∀ q : Fin 20, ∃ t : Fin grid0.N, win0_3.index t = ![q.val, 0])

/-- The twenty blocks tile the array: row n is in block n / 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region: the layer of the three arrays the region found. -/
theorem final (c : Dev nD) :
    (dat0 V c).arrAt 3 cfg0.N = layer (arrX V c) (arrW V c) (arrB V c) :=
  (dat0 V c).arrAt_eq_of_cover 3 _ (fun t _ => flushed_eq V c t) covered

end Cert.KernelIdeal.Fc

end
-- ==== Proof.Drop.lean ====
/-
  The second of the three kernels: the edge weights after dropout, for both layers at once.

  The inputs are the edge values, laid out as one row of 1200000 entries, and two rows of uniform draws, one per layer.
  The kernel walks the 1200000 columns in five blocks of 240000. In each block, entry (l, e) of the output keeps the
  edge value e, multiplied by the named reciprocal of the keep probability, where draw (l, e) plus the keep probability
  reaches one, and is zero elsewhere. Entry (l, e) depends on the value at column e and the draw at (l, e) only, and
  the five blocks tile the columns (column e lies in block e / 240000), so the whole output array is one function of
  the two whole input arrays.
-/
import proofs.«103289_j53386443489751_1_alg».proof.Proof.Gen.KernelIdeal.Frame
import Idealize.ShloMosaic.Lib.Pipeline.Value
import Idealize.ShloMosaic.Lib.ValueIdx
import Idealize.ShloMosaic.PureOps.IdealRules

set_option maxRecDepth 16384

noncomputable section

namespace Cert.KernelIdeal.Drop

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The named constant of this kernel is the exact reciprocal of the float nearest to 0.7. -/
theorem scale : Named.named (F := Ideal) κ "c_10_7" (φ := .f32) 0x3FB6DB6E#32 = ((16777216 / 11744051 : ℝ) : EReal) :=
  IdealRules.named_const.ideal_named_scalar _ _ _ _ rfl

/-- One entry of the dropped-out weights from one draw x and one edge value y: y times the reciprocal of the keep
    probability where x plus the keep probability is at least one, zero elsewhere. -/
def kept (x y : EReal) : EReal :=
  Scalar.select (FloatOps.cmpf (F := Ideal) (φ := .f32) .oge (x + FloatOps.ofBits (F := Ideal) .f32 0x3F333333#32)
      (FloatOps.ofBits (F := Ideal) .f32 0x3F800000#32))
    (y * ((16777216 / 11744051 : ℝ) : EReal)) (FloatOps.ofBits (F := Ideal) .f32 0x00000000#32)

/-- The dropped-out weights of both layers: entry (l, e) from draw (l, e) and edge value e. -/
def weights (vals : S1x1200000.Idx → EReal) (u : S2x1200000.Idx → EReal) : S2x1200000.Idx → EReal :=
  fun i => kept (u i) (vals (ix2 0 (i 1)))

/-- One block's result at entry (l, e): from the loaded draws at (l, e) and the loaded values at (0, e). -/
theorem block_apply (v0 : Vec Ideal S1x240000 .f32) (v4 : Vec Ideal S2x240000 .f32) (l : Fin 2) (e : Fin 240000) :
    k1_pay1 v0 v4 (ix2 l e) = kept (v4 (ix2 l e)) (v0 (ix2 0 e)) := by
  unfold k1_pay1
  simp only [shapeCast_self]
  rw [ValueIdx.select_apply, ValueIdx.cmpf_apply, ValueIdx.addf_apply, ValueIdx.mulf_apply]
  simp only [ValueIdx.broadcast_apply]
  rw [broadcastTo_apply v0 _ (ix2 l e) (ix2 0 e) (by intro a; match a with | ⟨0, _⟩ => rfl | ⟨1, _⟩ => rfl), scale]
  rfl

/-- The two arrays the region reads, as the region finds them, at their literal types. -/
abbrev arrVals (c : Dev nD) : S1x1200000.Idx → EReal := V c main_v2
abbrev arrDraws (c : Dev nD) : S2x1200000.Idx → EReal := V c main_arg4

theorem origin : (![0, 0] : Fin 2 → Nat) = fun _ => 0 := funext fun a => by fin_cases a <;> rfl

/-- All three windows move together along the columns: block t of each starts at column 240000 * t. -/
theorem same_block : ∀ t : Fin cfg1.N, win1_0.index t (0 : Fin 2) = 0
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = 0
    ∧ win1_2.index t (1 : Fin 2) = t.val :=
  (by decide +kernel : ∀ t : Fin grid1.N, _)

/-- What point t writes back is block t of the weights of the two arrays as the region finds them. -/
theorem flushed_eq (c : Dev nD) (t : Fin cfg1.N) :
    (dat1 V c).flushed 2 t = ((cfg1.win 2).blk t).view.read (Elt Ideal) (weights (arrVals V c) (arrDraws V c)) := by
  show (cfg1.win 2).cut (grid1.coords t) ((dat1 V c).after 2 t) = _
  rw [after1_2]
  unfold out1_2
  rw [View.canon_unit_zero origin]
  simp only [View.ld_unit_zero (S := S1x240000) origin, View.ld_unit_zero (S := S2x240000) origin]
  obtain ⟨e0, e1, e2, e3, e4, e5⟩ := same_block t
  funext j
  obtain ⟨l, e, rfl⟩ : ∃ (l : Fin 2) (e : Fin 240000), j = ix2 l e := ⟨j 0, j 1, eq_ix2 j⟩
  show k1_pay1 (iblk1 V c 0 t) (iblk1 V c 1 t) (ix2 l e)
    = weights (arrVals V c) (arrDraws V c) (((cfg1.win 2).blk t).view.emb (ix2 l e))
  refine (block_apply (iblk1 V c 0 t) (iblk1 V c 1 t) l e).trans ?_
  show kept (arrDraws V c (((cfg1.win 1).blk t).view.emb (ix2 l e))) (arrVals V c (((cfg1.win 0).blk t).view.emb (ix2 0 e)))
    = kept (arrDraws V c (((cfg1.win 2).blk t).view.emb (ix2 l e)))
        (arrVals V c (ix2 0 ((((cfg1.win 2).blk t).view.emb (ix2 l e)) 1)))
  have h1 : ((cfg1.win 1).blk t).view.emb (ix2 l e) = ((cfg1.win 2).blk t).view.emb (ix2 l e) := by
    funext a; apply Fin.ext
    match a with
    | ⟨0, _⟩ => show win1_1.index t (0 : Fin 2) * 2 + 1 * l.val = win1_2.index t (0 : Fin 2) * 2 + 1 * l.val; omega
    | ⟨1, _⟩ => show win1_1.index t (1 : Fin 2) * 240000 + 1 * e.val = win1_2.index t (1 : Fin 2) * 240000 + 1 * e.val; omega
  have h0 : ((cfg1.win 0).blk t).view.emb (ix2 0 e) = ix2 0 ((((cfg1.win 2).blk t).view.emb (ix2 l e)) 1) := by
    funext a; apply Fin.ext
    match a with
    | ⟨0, _⟩ => show win1_0.index t (0 : Fin 2) * 1 + 1 * 0 = 0; omega
    | ⟨1, _⟩ => show win1_0.index t (1 : Fin 2) * 240000 + 1 * e.val = win1_2.index t (1 : Fin 2) * 240000 + 1 * e.val; omega
  rw [h0, h1]
  rfl

/-- An index of the output array is in point t's block iff each coordinate is in the block's range on its axis. -/
theorem mem_block (t : Fin cfg1.N) (i : S2x1200000.Idx) :
    i ∈ ((cfg1.win 2).blk t).view.set ↔ ∀ a : Fin 2, win1_2.index t a * S2x240000.size a ≤ (i a).val
      ∧ (i a).val < win1_2.index t a * S2x240000.size a + S2x240000.size a := by
  show i ∈ ((View.whole main_v3).slice (win1_2.rect t)).set ↔ _
  rw [View.set_slice_whole, Rect.mem_set_unit]
  exact Iff.rfl

/-- Every block index 0 … 4 is some point's. -/
theorem block_onto : ∀ q : Fin 5, ∃ t : Fin cfg1.N, win1_2.index t = ![0, q.val] :=
  (by decide +kernel : ∀ q : Fin 5, ∃ t : Fin grid1.N, win1_2.index t = ![0, q.val])

/-- The five blocks tile the array: column e is in block e / 240000. -/
theorem covered (i : S2x1200000.Idx) :
    ∃ t : Fin cfg1.N, (cfg1.win 2).flush t = true ∧ i ∈ ((cfg1.win 2).blk t).view.set := by
  have hi0 : (i 0).val < 2 := (i 0).isLt
  have hi1 : (i 1).val < 1200000 := (i 1).isLt
  obtain ⟨t, ht⟩ := block_onto ⟨(i 1).val / 240000, by omega⟩
  have q0 : win1_2.index t (0 : Fin 2) = 0 := congrFun ht 0
  have q1 : win1_2.index t (1 : Fin 2) = (i 1).val / 240000 := congrFun ht 1
  refine ⟨t, flush1_2 t, ?_⟩
  rw [mem_block]
  intro a
  match a with
  | ⟨0, _⟩ => show win1_2.index t (0 : Fin 2) * 2 ≤ (i 0).val ∧ (i 0).val < win1_2.index t (0 : Fin 2) * 2 + 2; omega
  | ⟨1, _⟩ => show win1_2.index t (1 : Fin 2) * 240000 ≤ (i 1).val ∧ (i 1).val < win1_2.index t (1 : Fin 2) * 240000 + 240000; omega

/-- The output array after the region: the weights of the two arrays the region found. -/
theorem final (c : Dev nD) :
    (dat1 V c).arrAt 2 cfg1.N = weights (arrVals V c) (arrDraws V c) :=
  (dat1 V c).arrAt_eq_of_cover 2 _ (fun t _ => flushed_eq V c t) covered

end Cert.KernelIdeal.Drop

end
-- ==== Proof.Combine.lean ====
/-
  The last of the three kernels: the mean of three arrays of 100000 rows by 64 columns.

  The kernel walks the rows in twenty blocks of 5000. At each block it adds the three blocks entry by entry, the first
  two first, and multiplies the sum by the named constant one third. Entry (n, d) of the result therefore depends on
  entry (n, d) of each operand only, and the twenty blocks tile the rows (row n lies in block n / 5000), so the whole
  output array is one function of the three whole input arrays: (a + x + y) * (1/3), entry by entry.
-/
import proofs.«103289_j53386443489751_1_alg».proof.Proof.Gen.KernelIdeal.Frame
import Idealize.ShloMosaic.Lib.Pipeline.Value
import Idealize.ShloMosaic.Lib.ValueIdx
import Idealize.ShloMosaic.PureOps.IdealRules

set_option maxRecDepth 16384

noncomputable section

namespace Cert.KernelIdeal.Combine

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The named constant of this kernel is the rational one third. -/
theorem third : Named.named (F := Ideal) κ "inv_3" (φ := .f32) 0x3EAAAAAB#32 = ((1 / 3 : ℝ) : EReal) :=
  IdealRules.named_const.ideal_named_scalar _ _ _ _ rfl

/-- The mean of three arrays, the first two added first. -/
def mean3 (a x y : S100000x64.Idx → EReal) : S100000x64.Idx → EReal :=
  fun i => (a i + x i + y i) * ((1 / 3 : ℝ) : EReal)

/-- One block's result at an entry: the three loaded blocks' entries added, times one third. -/
theorem block_apply (x0 x1 x2 : Vec Ideal S5000x64 .f32) (j : S5000x64.Idx) :
    k2_pay1 x0 x1 x2 j = (x0 j + x1 j + x2 j) * ((1 / 3 : ℝ) : EReal) := by
  unfold k2_pay1
  simp only [shapeCast_self]
  rw [ValueIdx.mulf_apply, ValueIdx.addf_apply, ValueIdx.addf_apply, ValueIdx.broadcast_apply, third]

/-- The three arrays the region reads, as the region finds them, at their literal type. -/
abbrev arrA (c : Dev nD) : S100000x64.Idx → EReal := V c main_v1
abbrev arrX (c : Dev nD) : S100000x64.Idx → EReal := V c main_v18
abbrev arrY (c : Dev nD) : S100000x64.Idx → EReal := V c main_v33

theorem origin : (![0, 0] : Fin 2 → Nat) = fun _ => 0 := funext fun a => by fin_cases a <;> rfl

/-- All four windows move together: block t of each starts at row 5000 * t, column 0. -/
theorem same_block : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 2) = win2_3.index t (0 : Fin 2)
    ∧ win2_2.index t (1 : Fin 2) = win2_3.index t (1 : Fin 2)
    ∧ win2_3.index t (0 : Fin 2) = t.val
    ∧ win2_3.index t (1 : Fin 2) = 0 :=
  (by decide +kernel : ∀ t : Fin grid2.N, _)

/-- What point t writes back is block t of the mean of the three arrays as the region finds them. -/
theorem flushed_eq (c : Dev nD) (t : Fin cfg2.N) :
    (dat2 V c).flushed 3 t = ((cfg2.win 3).blk t).view.read (Elt Ideal)
      (mean3 (V c main_v1) (V c main_v18) (V c main_v33)) := by
  show (cfg2.win 3).cut (grid2.coords t) ((dat2 V c).after 3 t) = _
  rw [after2_3]
  unfold out2_3
  rw [View.canon_unit_zero origin]
  simp only [View.ld_unit_zero (S := S5000x64) origin]
  obtain ⟨e0, e1, e2, e3, e4, e5, e6, e7⟩ := same_block t
  funext j
  show k2_pay1 (iblk2 V c 0 t) (iblk2 V c 1 t) (iblk2 V c 2 t) j
    = mean3 (V c main_v1) (V c main_v18) (V c main_v33) (((cfg2.win 3).blk t).view.emb j)
  refine (block_apply (iblk2 V c 0 t) (iblk2 V c 1 t) (iblk2 V c 2 t) j).trans ?_
  show (arrA V c (((cfg2.win 0).blk t).view.emb j) + arrX V c (((cfg2.win 1).blk t).view.emb j)
      + arrY V c (((cfg2.win 2).blk t).view.emb j)) * ((1 / 3 : ℝ) : EReal)
    = (arrA V c (((cfg2.win 3).blk t).view.emb j) + arrX V c (((cfg2.win 3).blk t).view.emb j)
      + arrY V c (((cfg2.win 3).blk t).view.emb j)) * ((1 / 3 : ℝ) : EReal)
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 64 + 1 * (j 1).val = win2_3.index t (1 : Fin 2) * 64 + 1 * (j 1).val; omega
  rw [h0, h1, h2]

/-- An index of the output array is in point t's block iff each coordinate is in the block's range on its axis. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v34).slice (win2_3.rect t)).set ↔ _
  rw [View.set_slice_whole, Rect.mem_set_unit]
  exact Iff.rfl

/-- Every block index 0 … 19 is some point's. -/
theorem block_onto : ∀ q : Fin 20, ∃ t : Fin cfg2.N, win2_3.index t = ![q.val, 0] :=
  (by decide +kernel : ∀ q : Fin 20, ∃ t : Fin grid2.N, win2_3.index t = ![q.val, 0])

/-- The twenty blocks tile the array: row n is in block n / 5000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := block_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region: the mean of the three arrays the region found. -/
theorem final (c : Dev nD) :
    (dat2 V c).arrAt 3 cfg2.N = mean3 (V c main_v1) (V c main_v18) (V c main_v33) :=
  (dat2 V c).arrAt_eq_of_cover 3 _ (fun t _ => flushed_eq V c t) covered

end Cert.KernelIdeal.Combine

end
-- ==== Proof.Aggregate.lean ====
/-
  One round of message passing on the host, as one function of its four operands.

  Given a weight per edge, node features x (100000 rows of 64), and for every edge a target row and a source column
  number: a negative column number has 100000 added to it; the source's feature row is gathered for every edge and
  multiplied, entry by entry, by the edge's weight; and the weighted rows are added into a zero array at the edges'
  target rows. Both programs apply exactly this chain of operations, so it is named once here and never opened: all
  that is ever needed of it is that equal operands give equal results.

  Also named here: the re-layings the kernel program does on the host around its kernels (a vector as a one-row
  matrix, and one row of a two-row matrix as a vector).
-/
import proofs.«103289_j53386443489751_1_alg».proof.Proof.Gen.KernelIdeal

noncomputable section

namespace Cert.KernelIdeal.Aggregate

open Cert.KernelIdeal Cert.KernelIdeal.Facts₀ Idealize.ShloMosaic

/-- One round: weight the gathered source rows and add them into the target rows. -/
def round (w : (⟨S1200000, .f32⟩ : BufTy).Contents (Elt Ideal)) (x : (⟨S100000x64, .f32⟩ : BufTy).Contents (Elt Ideal))
    (rows cols : (⟨S1200000, .i32⟩ : BufTy).Contents (Elt Ideal)) : (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 rows)
    (mulf (broadcastInDim S1200000x64 ![0, 1] bcast_S1200000x1_S1200000x64_0_1
        (broadcastInDim S1200000x1 ![0] bcast_S1200000_S1200000x1_0 w))
      (Host.gather gather_S100000x64_S1200000x1_S1200000x64_1_0_n_n_0_1_164 x
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 100000#32))) cols))))

/-- A vector of 1200000 entries laid out as one row. -/
def asRow (v : (⟨S1200000, .f32⟩ : BufTy).Contents (Elt Ideal)) : (⟨S1x1200000, .f32⟩ : BufTy).Contents (Elt Ideal) :=
  shapeCast S1x1200000 v shapeCasts_S1200000_S1x1200000

/-- The bias vector laid out as one row. -/
def biasRow (b : (⟨S64, .f32⟩ : BufTy).Contents (Elt Ideal)) : (⟨S1x64, .f32⟩ : BufTy).Contents (Elt Ideal) :=
  shapeCast S1x64 b shapeCasts_S64_S1x64

/-- Row 0 of a two-row matrix, as a vector. -/
def row0 (d : (⟨S2x1200000, .f32⟩ : BufTy).Contents (Elt Ideal)) : (⟨S1200000, .f32⟩ : BufTy).Contents (Elt Ideal) :=
  shapeCast S1200000 (extractStridedSlice S1x1200000 ![0, 0] d slices_S2x1200000_S1x1200000_0_0) shapeCasts_S1x1200000_S1200000

/-- Row 1 of a two-row matrix, as a vector. -/
def row1 (d : (⟨S2x1200000, .f32⟩ : BufTy).Contents (Elt Ideal)) : (⟨S1200000, .f32⟩ : BufTy).Contents (Elt Ideal) :=
  shapeCast S1200000 (extractStridedSlice S1x1200000 ![1, 0] d slices_S2x1200000_S1x1200000_1_0) shapeCasts_S1x1200000_S1200000

end Cert.KernelIdeal.Aggregate

end
-- ==== Proof.Whole.lean ====
/-
  The whole computation as one function of the seven arguments.

  With x the node features, w and b the layer's weights and bias, vals the edge values, u the two rows of uniform
  draws, and rows / cols the edges' target and source nodes:

    weights = the dropped-out edge weights of both layers (from vals and u),
    first   = one round of message passing over x with row 0 of the weights,
    second  = one round over first with row 1 of the weights,
    result  = (x · wᵀ + b  +  first  +  second) · (1/3).

  The kernel program and the reference both end holding this function of their arguments.
-/
import proofs.«103289_j53386443489751_1_alg».proof.Proof.Fc
import proofs.«103289_j53386443489751_1_alg».proof.Proof.Drop
import proofs.«103289_j53386443489751_1_alg».proof.Proof.Combine
import proofs.«103289_j53386443489751_1_alg».proof.Proof.Aggregate

noncomputable section

namespace Cert.KernelIdeal.Whole

open Cert.KernelIdeal Idealize.ShloMosaic

variable (x : (⟨S100000x64, .f32⟩ : BufTy).Contents (Elt Ideal)) (w : (⟨S64x64, .f32⟩ : BufTy).Contents (Elt Ideal))
  (b : (⟨S64, .f32⟩ : BufTy).Contents (Elt Ideal)) (vals : (⟨S1200000, .f32⟩ : BufTy).Contents (Elt Ideal))
  (u : (⟨S2x1200000, .f32⟩ : BufTy).Contents (Elt Ideal)) (rows cols : (⟨S1200000, .i32⟩ : BufTy).Contents (Elt Ideal))

/-- The dropped-out edge weights of both layers. -/
def weights : (⟨S2x1200000, .f32⟩ : BufTy).Contents (Elt Ideal) := Drop.weights (Aggregate.asRow vals) u

/-- The node features after the first round of message passing. -/
def first : (⟨S100000x64, .f32⟩ : BufTy).Contents (Elt Ideal) :=
  Aggregate.round (Aggregate.row0 (weights vals u)) x rows cols

/-- The node features after the second round. -/
def second : (⟨S100000x64, .f32⟩ : BufTy).Contents (Elt Ideal) :=
  Aggregate.round (Aggregate.row1 (weights vals u)) (first x vals u rows cols) rows cols

/-- The mean of the projected features and the two rounds' features. -/
def result : (⟨S100000x64, .f32⟩ : BufTy).Contents (Elt Ideal) :=
  Combine.mean3 (Fc.layer x w (Aggregate.biasRow b)) (first x vals u rows cols) (second x vals u rows cols)

end Cert.KernelIdeal.Whole

end
-- ==== Proof.KernelValue.lean ====
/-
  The kernel program's result as the whole computation's function of the seven arguments.

  The run of the program passes six boundaries: after the host operations before the first kernel, after the first
  kernel, and so on to the exit of the third kernel. At each boundary every buffer's contents are a function of the
  contents at the boundary before: a host stretch leaves a buffer it does not write as it was and a buffer it writes
  at its operation's value; a kernel leaves its output array at the whole-array function of its input arrays and every
  other buffer as it was. Reading the result buffer back from the last boundary to the launch gives the mean of the
  projected features and the two rounds of message passing, each over the dropped-out weights.
-/
import proofs.«103289_j53386443489751_1_alg».proof.Proof.KernelRun
import proofs.«103289_j53386443489751_1_alg».proof.Proof.Whole
import Idealize.ShloMosaic.Lib.StableHlo.Run

set_option maxRecDepth 16384

noncomputable section

namespace Cert.KernelIdeal.Through

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Before the first kernel: the bias is laid out as a row, nothing else moves -/

theorem W1_arg0 (c : Dev nD) : W1 m ρ c (Proc.devRef .tc main_arg0) = m ((c : Thread nD τ).loc main_arg0) := by
  show StableHlo.after hostOps0 _ (Proc.devRef .tc main_arg0) = _
  after_results
theorem W1_arg1 (c : Dev nD) : W1 m ρ c (Proc.devRef .tc main_arg1) = m ((c : Thread nD τ).loc main_arg1) := by
  show StableHlo.after hostOps0 _ (Proc.devRef .tc main_arg1) = _
  after_results
theorem W1_arg3 (c : Dev nD) : W1 m ρ c (Proc.devRef .tc main_arg3) = m ((c : Thread nD τ).loc main_arg3) := by
  show StableHlo.after hostOps0 _ (Proc.devRef .tc main_arg3) = _
  after_results
theorem W1_arg4 (c : Dev nD) : W1 m ρ c (Proc.devRef .tc main_arg4) = m ((c : Thread nD τ).loc main_arg4) := by
  show StableHlo.after hostOps0 _ (Proc.devRef .tc main_arg4) = _
  after_results
theorem W1_arg5 (c : Dev nD) : W1 m ρ c (Proc.devRef .tc main_arg5) = m ((c : Thread nD τ).loc main_arg5) := by
  show StableHlo.after hostOps0 _ (Proc.devRef .tc main_arg5) = _
  after_results
theorem W1_arg6 (c : Dev nD) : W1 m ρ c (Proc.devRef .tc main_arg6) = m ((c : Thread nD τ).loc main_arg6) := by
  show StableHlo.after hostOps0 _ (Proc.devRef .tc main_arg6) = _
  after_results

theorem W1_v0 (c : Dev nD) : W1 m ρ c (Proc.devRef .tc main_v0) = Aggregate.biasRow (m ((c : Thread nD τ).loc main_arg2)) := by
  show StableHlo.after hostOps0 _ (Proc.devRef .tc main_v0) = _
  after_results
  rfl

/-! ## After the first kernel: its output holds the projected features -/

theorem W2_v1 (c : Dev nD) : W2 m ρ c (Proc.devRef .tc main_v1)
    = Fc.layer (m ((c : Thread nD τ).loc main_arg0)) (m ((c : Thread nD τ).loc main_arg1)) (Aggregate.biasRow (m ((c : Thread nD τ).loc main_arg2))) := by
  refine (W2_arr m ρ c 3).trans ?_
  rw [Fc.final (V1 m ρ) c]
  show Fc.layer (W1 m ρ c (Proc.devRef .tc main_arg0)) (W1 m ρ c (Proc.devRef .tc main_arg1)) (W1 m ρ c (Proc.devRef .tc main_v0)) = _
  rw [W1_arg0, W1_arg1, W1_v0]

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Before the second kernel: the edge values are laid out as a row -/

theorem W3_arg0 (c : Dev nD) : W3 m ρ c (Proc.devRef .tc main_arg0) = m ((c : Thread nD τ).loc main_arg0) := by
  show StableHlo.after hostOps1 _ (Proc.devRef .tc main_arg0) = _
  after_results
  exact W2_arg0 m ρ c
theorem W3_arg4 (c : Dev nD) : W3 m ρ c (Proc.devRef .tc main_arg4) = m ((c : Thread nD τ).loc main_arg4) := by
  show StableHlo.after hostOps1 _ (Proc.devRef .tc main_arg4) = _
  after_results
  exact W2_arg4 m ρ c
theorem W3_arg5 (c : Dev nD) : W3 m ρ c (Proc.devRef .tc main_arg5) = m ((c : Thread nD τ).loc main_arg5) := by
  show StableHlo.after hostOps1 _ (Proc.devRef .tc main_arg5) = _
  after_results
  exact W2_arg5 m ρ c
theorem W3_arg6 (c : Dev nD) : W3 m ρ c (Proc.devRef .tc main_arg6) = m ((c : Thread nD τ).loc main_arg6) := by
  show StableHlo.after hostOps1 _ (Proc.devRef .tc main_arg6) = _
  after_results
  exact W2_arg6 m ρ c

theorem W3_v1 (c : Dev nD) : W3 m ρ c (Proc.devRef .tc main_v1)
    = Fc.layer (m ((c : Thread nD τ).loc main_arg0)) (m ((c : Thread nD τ).loc main_arg1)) (Aggregate.biasRow (m ((c : Thread nD τ).loc main_arg2))) := by
  show StableHlo.after hostOps1 _ (Proc.devRef .tc main_v1) = _
  after_results
  exact W2_v1 m ρ c

theorem W3_v2 (c : Dev nD) : W3 m ρ c (Proc.devRef .tc main_v2) = Aggregate.asRow (m ((c : Thread nD τ).loc main_arg3)) := by
  show StableHlo.after hostOps1 _ (Proc.devRef .tc main_v2) = _
  after_results
  rw [W2_arg3]
  rfl

/-! ## After the second kernel: its output holds the dropped-out weights -/

theorem W4_v3 (c : Dev nD) : W4 m ρ c (Proc.devRef .tc main_v3)
    = Whole.weights (m ((c : Thread nD τ).loc main_arg3)) (m ((c : Thread nD τ).loc main_arg4)) := by
  refine (W4_arr m ρ c 2).trans ?_
  rw [Drop.final (V3 m ρ) c]
  show Drop.weights (W3 m ρ c (Proc.devRef .tc main_v2)) (W3 m ρ c (Proc.devRef .tc main_arg4)) = _
  rw [W3_v2, W3_arg4]
  rfl

theorem W4_v1 (c : Dev nD) : W4 m ρ c (Proc.devRef .tc main_v1)
    = Fc.layer (m ((c : Thread nD τ).loc main_arg0)) (m ((c : Thread nD τ).loc main_arg1)) (Aggregate.biasRow (m ((c : Thread nD τ).loc main_arg2))) :=
  (W4_of_ne m ρ c main_v1 (by decide)).trans (W3_v1 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## Before the third kernel: the two rounds of message passing -/

theorem W5_v1 (c : Dev nD) : W5 m ρ c (Proc.devRef .tc main_v1)
    = Fc.layer (m ((c : Thread nD τ).loc main_arg0)) (m ((c : Thread nD τ).loc main_arg1)) (Aggregate.biasRow (m ((c : Thread nD τ).loc main_arg2))) := by
  show StableHlo.after hostOps2 _ (Proc.devRef .tc main_v1) = _
  after_results
  exact W4_v1 m ρ c

set_option maxHeartbeats 8000000 in
theorem W5_v18 (c : Dev nD) : W5 m ρ c (Proc.devRef .tc main_v18)
    = Whole.first (m ((c : Thread nD τ).loc main_arg0)) (m ((c : Thread nD τ).loc main_arg3)) (m ((c : Thread nD τ).loc main_arg4))
        (m ((c : Thread nD τ).loc main_arg5)) (m ((c : Thread nD τ).loc main_arg6)) := by
  show StableHlo.after hostOps2 _ (Proc.devRef .tc main_v18) = _
  after_results_simp
  rw [W4_v3, W4_arg0, W4_arg5, W4_arg6]
  rfl

set_option maxHeartbeats 8000000 in
theorem W5_v33 (c : Dev nD) : W5 m ρ c (Proc.devRef .tc main_v33)
    = Whole.second (m ((c : Thread nD τ).loc main_arg0)) (m ((c : Thread nD τ).loc main_arg3)) (m ((c : Thread nD τ).loc main_arg4))
        (m ((c : Thread nD τ).loc main_arg5)) (m ((c : Thread nD τ).loc main_arg6)) := by
  show StableHlo.after hostOps2 _ (Proc.devRef .tc main_v33) = _
  after_results_simp
  rw [W4_v3, W4_arg0, W4_arg5, W4_arg6]
  rfl

/-! ## After the third kernel: the result -/

/-- The result buffer at the last boundary of the run is the whole computation's function of the launch contents
    of the seven arguments. -/
theorem value (c : Dev nD) : W6 m ρ c (Proc.devRef .tc main_v34)
    = Whole.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W6_arr m ρ c 3).trans ?_
  rw [Combine.final (V5 m ρ) c]
  show Combine.mean3 (W5 m ρ c (Proc.devRef .tc main_v1)) (W5 m ρ c (Proc.devRef .tc main_v18)) (W5 m ρ c (Proc.devRef .tc main_v33)) = _
  rw [W5_v1, W5_v18, W5_v33]
  rfl

end Cert.KernelIdeal.Through

end
-- ==== Proof.Consts.lean ====
/-
  The two float words the reference divides by, read as the rational numbers they encode, and what a division by each
  is on the extended reals.

  The word 0x3F333333 is the binary fraction 11744051 / 2^24 (the float nearest to 0.7), and 0x40400000 is 3. A quotient
  by a nonzero real number y is, on every extended real x (the infinities included), the product of x with the real
  1 / y. So dividing by the first word is multiplying by 16777216 / 11744051, and dividing by 3 is multiplying by 1 / 3.
-/
import Idealize.ShloMosaic.PureOps.Ideal
import Idealize.ShloMosaic.PureOps.Ideal.Laws
import Mathlib.Data.EReal.Inv
import Mathlib.Data.EReal.Operations

noncomputable section

namespace Cert.Consts

open Idealize.ShloMosaic

/-- The float nearest to 0.7 is exactly 11744051 / 16777216. -/
theorem keep_word : Ideal.ofBits .f32 0x3F333333#32 = ((11744051 / 16777216 : ℝ) : EReal) := by
  simp [Ideal.ofBits, Ideal.ieee, -EReal.coe_mul]; norm_num

/-- The float 3.0 is the real 3. -/
theorem three_word : Ideal.ofBits .f32 0x40400000#32 = ((3 : ℝ) : EReal) := by
  simp [Ideal.ofBits, Ideal.ieee, -EReal.coe_mul]; norm_num

/-- Dividing any extended real by the float nearest to 0.7 multiplies it by the reciprocal 16777216 / 11744051. -/
theorem div_keep (x : EReal) :
    Ideal.div x (Ideal.ofBits .f32 0x3F333333#32) = x * ((16777216 / 11744051 : ℝ) : EReal) := by
  rw [keep_word, Ideal.div_coe (by norm_num : (11744051 / 16777216 : ℝ) ≠ 0)]
  norm_num

/-- Dividing any extended real by 3 multiplies it by 1 / 3. -/
theorem div_three (x : EReal) :
    Ideal.div x (Ideal.ofBits .f32 0x40400000#32) = x * ((1 / 3 : ℝ) : EReal) := by
  rw [three_word, Ideal.div_coe (by norm_num : (3 : ℝ) ≠ 0)]

end Cert.Consts

end
-- ==== Proof.Reference.lean ====
/-
  The reference's result as the whole computation's function of the seven arguments.

  The reference computes, on whole arrays: the projected features x · wᵀ + b; for each of the two layers the edge
  weights (the edge value divided by the keep probability where the layer's draw plus the keep probability reaches
  one, zero elsewhere) and one round of message passing with them; the sum of the three arrays; and its quotient by 3.
  Stage by stage this is the whole computation's function: the product read at an entry is row n of x against row d of
  w; a quotient by the keep probability is the product with its exact reciprocal, and a quotient by 3 the product with
  one third, on every extended real; the layer's draws are one row of the two-row array; and the round of message
  passing is the same chain of operations in both programs.
-/
import proofs.«103289_j53386443489751_1_alg».proof.Proof.Gen.ReferenceIdeal.Run
import proofs.«103289_j53386443489751_1_alg».proof.Proof.Gen.ReferenceIdeal.Read
import proofs.«103289_j53386443489751_1_alg».proof.Proof.Whole
import proofs.«103289_j53386443489751_1_alg».proof.Proof.Consts
import Idealize.ShloMosaic.Lib.ValueIdx
import Idealize.ShloMosaic.Lib.Pipeline.Value

set_option maxRecDepth 16384

noncomputable section

namespace Cert.ReferenceIdeal.AsWhole

open Cert.ReferenceIdeal Cert.ReferenceIdeal.Read Idealize.ShloMosaic Idealize.ShloMosaic.ValueIdx

variable (x0 : (⟨S100000x64, .f32⟩ : BufTy).Contents (Elt Ideal)) (x1 : (⟨S64x64, .f32⟩ : BufTy).Contents (Elt Ideal))
  (x2 : (⟨S64, .f32⟩ : BufTy).Contents (Elt Ideal)) (x3 : (⟨S1200000, .f32⟩ : BufTy).Contents (Elt Ideal))
  (x4 : (⟨S2x1200000, .f32⟩ : BufTy).Contents (Elt Ideal)) (x5 x6 : (⟨S1200000, .i32⟩ : BufTy).Contents (Elt Ideal))

/-! ## The rounds of message passing: the same chain of operations -/

theorem round_first : val_main_v26 (F := Ideal) x0 x3 x4 x5 x6
    = Cert.KernelIdeal.Aggregate.round (val_main_v13 (F := Ideal) x3 x4) x0 x5 x6 := rfl

theorem round_second : val_main_v49 (F := Ideal) x0 x3 x4 x5 x6
    = Cert.KernelIdeal.Aggregate.round (val_main_v36 (F := Ideal) x3 x4) (val_main_v26 (F := Ideal) x0 x3 x4 x5 x6) x5 x6 := rfl

/-! ## The projected features -/

/-- The bias laid out as a row, read at column q, is the bias at q. -/
theorem biasRow_apply (q : Fin 64) : Cert.KernelIdeal.Aggregate.biasRow x2 (ix2 0 q) = x2 (ix1 q) := by
  unfold Cert.KernelIdeal.Aggregate.biasRow
  refine shapeCast_apply x2 _ (ix2 0 q) (ix1 q) ?_
  rw [Shape.rowMajor_val_one, Shape.rowMajor_val_two]
  show q.val = 0 * 64 + q.val
  omega

theorem fc_eq : val_main_v4 (F := Ideal) x0 x1 x2
    = Cert.KernelIdeal.Fc.layer x0 x1 (Cert.KernelIdeal.Aggregate.biasRow x2) := by
  funext i
  obtain ⟨n, d, rfl⟩ : ∃ (n : Fin 100000) (d : Fin 64), i = ix2 n d := ⟨i 0, i 1, eq_ix2 i⟩
  rw [val_main_v4_apply, val_main_v1_apply, val_main_v3_apply, val_main_v2_apply]
  simp only [val_main_v0_apply]
  have hl : ∀ k : Fin 64, lidx_main_v1 (ix2 n d) k = ix2 n k := fun k => funext fun a => Fin.ext (by
    match a with
    | ⟨0, _⟩ => rfl
    | ⟨1, _⟩ => rfl)
  have hr : ∀ k : Fin 64, idx_main_v0 (ridx_main_v1 (ix2 n d) k) = ix2 d k := fun k => funext fun a => Fin.ext (by
    match a with
    | ⟨0, _⟩ => rfl
    | ⟨1, _⟩ => rfl)
  have hb : idx_main_v2 (idx_main_v3 (ix2 n d)) = ix1 d := funext fun a => Fin.ext (by
    match a with
    | ⟨0, _⟩ => rfl)
  show (∑ k : Fin 64, x0 (lidx_main_v1 (ix2 n d) k) * x1 (idx_main_v0 (ridx_main_v1 (ix2 n d) k)))
      + x2 (idx_main_v2 (idx_main_v3 (ix2 n d)))
    = (∑ k : Fin 64, x0 (ix2 n k) * x1 (ix2 d k)) + Cert.KernelIdeal.Aggregate.biasRow x2 (ix2 0 d)
  rw [hb, biasRow_apply]
  refine congrArg (· + _) (Finset.sum_congr rfl fun k _ => ?_)
  rw [hl k, hr k]

/-! ## The dropped-out weights, layer by layer -/

/-- The edge values laid out as a row, read at column e, are the values at e. -/
theorem asRow_apply (e : Fin 1200000) : Cert.KernelIdeal.Aggregate.asRow x3 (ix2 0 e) = x3 (ix1 e) := by
  unfold Cert.KernelIdeal.Aggregate.asRow
  refine shapeCast_apply x3 _ (ix2 0 e) (ix1 e) ?_
  rw [Shape.rowMajor_val_one, Shape.rowMajor_val_two]
  show e.val = 0 * 1200000 + e.val
  omega

/-- Row 0 of a two-row array, as a vector, at e is the array at (0, e). -/
theorem row0_apply (d : (⟨S2x1200000, .f32⟩ : BufTy).Contents (Elt Ideal)) (e : Fin 1200000) :
    Cert.KernelIdeal.Aggregate.row0 d (ix1 e) = d (ix2 0 e) := by
  unfold Cert.KernelIdeal.Aggregate.row0
  refine (shapeCast_apply _ _ (ix1 e) (ix2 0 e) ?_).trans ?_
  · rw [Shape.rowMajor_val_one, Shape.rowMajor_val_two]
    show 0 * 1200000 + e.val = e.val
    omega
  · refine extractStridedSlice_apply _ d _ (ix2 0 e) (ix2 0 e) fun a => ?_
    match a with
    | ⟨0, _⟩ => rfl
    | ⟨1, _⟩ => exact (Nat.zero_add _).symm

/-- Row 1 of a two-row array, as a vector, at e is the array at (1, e). -/
theorem row1_apply (d : (⟨S2x1200000, .f32⟩ : BufTy).Contents (Elt Ideal)) (e : Fin 1200000) :
    Cert.KernelIdeal.Aggregate.row1 d (ix1 e) = d (ix2 1 e) := by
  unfold Cert.KernelIdeal.Aggregate.row1
  refine (shapeCast_apply _ _ (ix1 e) (ix2 0 e) ?_).trans ?_
  · rw [Shape.rowMajor_val_one, Shape.rowMajor_val_two]
    show 0 * 1200000 + e.val = e.val
    omega
  · refine extractStridedSlice_apply _ d _ (ix2 0 e) (ix2 1 e) fun a => ?_
    match a with
    | ⟨0, _⟩ => rfl
    | ⟨1, _⟩ => exact (Nat.zero_add _).symm

/-- Entry (l, e) of the weights: from draw (l, e) and edge value e. -/
theorem weights_apply (l : Fin 2) (e : Fin 1200000) :
    Cert.KernelIdeal.Whole.weights x3 x4 (ix2 l e) = Cert.KernelIdeal.Drop.kept (x4 (ix2 l e)) (x3 (ix1 e)) := by
  show Cert.KernelIdeal.Drop.kept (x4 (ix2 l e)) (Cert.KernelIdeal.Aggregate.asRow x3 (ix2 0 e)) = _
  rw [asRow_apply]

/-- The reference's weight of one edge: the quotient by the keep probability is the product with its reciprocal. -/
theorem kept_eq (x y : EReal) :
    Scalar.select (FloatOps.cmpf (F := Ideal) (φ := .f32) .oge (FloatOps.addf x (FloatOps.ofBits (F := Ideal) .f32 0x3F333333#32))
        (FloatOps.ofBits (F := Ideal) .f32 0x3F800000#32))
      (FloatOps.hostDivf y (FloatOps.ofBits (F := Ideal) .f32 0x3F333333#32)) (FloatOps.ofBits (F := Ideal) .f32 0x00000000#32)
    = Cert.KernelIdeal.Drop.kept x y := by
  unfold Cert.KernelIdeal.Drop.kept
  rw [Ideal.hostDivf_def, Ideal.ofBits_def, Cert.Consts.div_keep]
  rfl

theorem w0_eq : val_main_v13 (F := Ideal) x3 x4
    = Cert.KernelIdeal.Aggregate.row0 (Cert.KernelIdeal.Whole.weights x3 x4) := by
  funext e
  obtain ⟨q, rfl⟩ : ∃ q : Fin 1200000, e = ix1 q := ⟨e 0, eq_ix1 e⟩
  rw [val_main_v13_apply, val_main_v10_apply, val_main_v8_apply, val_main_v6_apply, val_main_v5_apply, val_main_v7_apply,
    val_main_cst_apply, val_main_v9_apply, val_main_cst_0_apply, val_main_v12_apply, val_main_v11_apply, val_main_cst_1_apply,
    val_main_call0_v1_apply, val_main_call0_v0_apply, val_main_cst_2_apply, row0_apply, weights_apply]
  have hi : idx_main_v5 (idx_main_v6 (ix1 q)) = ix2 0 q := funext fun a => Fin.ext (by
    match a with
    | ⟨0, _⟩ => rfl
    | ⟨1, _⟩ => show q.val % 1200000 = q.val; have hq : q.val < 1200000 := q.isLt; omega)
  rw [hi]
  exact kept_eq _ _

theorem w1_eq : val_main_v36 (F := Ideal) x3 x4
    = Cert.KernelIdeal.Aggregate.row1 (Cert.KernelIdeal.Whole.weights x3 x4) := by
  funext e
  obtain ⟨q, rfl⟩ : ∃ q : Fin 1200000, e = ix1 q := ⟨e 0, eq_ix1 e⟩
  rw [val_main_v36_apply, val_main_v33_apply, val_main_v31_apply, val_main_v29_apply, val_main_v28_apply, val_main_v30_apply,
    val_main_cst_5_apply, val_main_v32_apply, val_main_cst_6_apply, val_main_v35_apply, val_main_v34_apply, val_main_cst_7_apply,
    val_main_call1_v1_apply, val_main_call1_v0_apply, val_main_cst_8_apply, row1_apply, weights_apply]
  have hi : idx_main_v28 (idx_main_v29 (ix1 q)) = ix2 1 q := funext fun a => Fin.ext (by
    match a with
    | ⟨0, _⟩ => rfl
    | ⟨1, _⟩ => show q.val % 1200000 = q.val; have hq : q.val < 1200000 := q.isLt; omega)
  rw [hi]
  exact kept_eq _ _

/-! ## The mean -/

theorem mean_eq (a x y : FVec Ideal S100000x64 .f32) :
    (Host.divf (addf (addf a x) y) (val_main_v51 (F := Ideal)) : FVec Ideal S100000x64 .f32)
      = Cert.KernelIdeal.Combine.mean3 a x y := by
  funext i
  show FloatOps.hostDivf (FloatOps.addf (FloatOps.addf (a i) (x i)) (y i)) (val_main_v51 (F := Ideal) i) = _
  rw [val_main_v51_apply, val_main_cst_12_apply, Ideal.hostDivf_def, Ideal.ofBits_def, Cert.Consts.div_three]
  rfl

/-! ## The whole -/

theorem result_eq : val_main_v52 (F := Ideal) x0 x1 x2 x3 x4 x5 x6
    = Cert.KernelIdeal.Whole.result x0 x1 x2 x3 x4 x5 x6 := by
  unfold val_main_v52 val_main_v50 val_main_v27
  rw [mean_eq, fc_eq, round_second, round_first, w0_eq, w1_eq]
  rfl

end Cert.ReferenceIdeal.AsWhole

end
-- ==== Proof.lean ====
/-
  Mean pooling of a two-layer graph encoder: the kernel program against its reference, over the extended reals.

  Both programs compute, from node features x, a weight matrix w, a bias b, edge values, two rows of uniform draws and
  the edges' target and source nodes,

      ( x · wᵀ + b  +  A₀ x  +  A₁ (A₀ x) ) / 3,

  where A_l is one round of message passing (gather the source rows, weight them, add them into the target rows) with
  the edge values after the layer's dropout: an edge keeps its value divided by the keep probability where the layer's
  draw plus the keep probability reaches one, and weighs zero elsewhere.

  The kernel program does the projection, the dropout for both layers at once and the final mean in three kernels
  that walk their arrays block by block, and the message passing on the host between them; it multiplies by the
  reciprocal of the keep probability and by one third where the reference divides. At the ideal values the two
  reciprocals are named constants with exactly the values 1 / (the float nearest to 0.7) and 1/3, a quotient by a
  nonzero real is the product with its reciprocal on every extended real, each kernel's blocks tile its output, and
  the message passing is the same chain of host operations in both programs. So both runs end with the result at one
  function of the arguments (Proof/Whole.lean): the kernel's by reading its run back boundary by boundary
  (Proof/KernelValue.lean over Proof/Fc.lean, Proof/Drop.lean, Proof/Combine.lean), the reference's stage by stage
  (Proof/Reference.lean).
-/
import proofs.«103289_j53386443489751_1_alg».proof.Defs
import proofs.«103289_j53386443489751_1_alg».proof.Proof.Gen.Kernel
import proofs.«103289_j53386443489751_1_alg».proof.Proof.Gen.Kernel.Skeleton
import proofs.«103289_j53386443489751_1_alg».proof.Proof.Gen.Kernel.Launch
import proofs.«103289_j53386443489751_1_alg».proof.Proof.Gen.Kernel.Points
import proofs.«103289_j53386443489751_1_alg».proof.Proof.Gen.Kernel.Frame
import proofs.«103289_j53386443489751_1_alg».proof.Proof.Gen.KernelIdeal
import proofs.«103289_j53386443489751_1_alg».proof.Proof.Gen.KernelIdeal.Skeleton
import proofs.«103289_j53386443489751_1_alg».proof.Proof.Gen.KernelIdeal.Launch
import proofs.«103289_j53386443489751_1_alg».proof.Proof.Gen.KernelIdeal.Points
import proofs.«103289_j53386443489751_1_alg».proof.Proof.Gen.KernelIdeal.Frame
import proofs.«103289_j53386443489751_1_alg».proof.Proof.Gen.ReferenceIdeal
import proofs.«103289_j53386443489751_1_alg».proof.Proof.Gen.ReferenceIdeal.Run
import proofs.«103289_j53386443489751_1_alg».proof.Proof.Gen.Pre_finite_inputs
import proofs.«103289_j53386443489751_1_alg».proof.Proof.KernelRun
import proofs.«103289_j53386443489751_1_alg».proof.Proof.KernelValue
import proofs.«103289_j53386443489751_1_alg».proof.Proof.Reference
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two named constants: the table gives the reciprocal of the keep probability and one third their exact values. -/
theorem preserves : Cert.preserves_Kernel_KernelIdeal :=
  ⟨IdealRules.named_const.statement Cert.KernelIdeal.κ "c_10_7" .f32 0x3FB6DB6E#32 ((16777216 / 11744051 : ℝ) : EReal) rfl,
   IdealRules.named_const.statement Cert.KernelIdeal.κ "inv_3" .f32 0x3EAAAAAB#32 ((1 / 3 : ℝ) : EReal) rfl⟩

/-- From memories that agree on the arguments both programs end with the result at the whole computation's function
    of the arguments. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Through.value m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, Cert.ReferenceIdeal.AsWhole.result_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
